-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 32 := constantI S_ 32 2#32
  let main_v6 : IVec S16777216 32 := broadcastInDim S16777216 ![] bcast_S_S16777216 main_c_1
  let main_v7 : IVec S16777216 1 := cmpi .slt main_arg1 main_v6
  let main_v8 : IVec S16777216 1 := andi main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S16777216x2 : Shape := ⟨2, ![16777216, 2]⟩
abbrev S16777216 : Shape := ⟨1, ![16777216]⟩
abbrev S16777216x1 : Shape := ⟨2, ![16777216, 1]⟩
abbrev S1x1 : Shape := ⟨2, ![1, 1]⟩
abbrev S8192x2 : Shape := ⟨2, ![8192, 2]⟩
abbrev S8192x1 : Shape := ⟨2, ![8192, 1]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S16777216x1, .i32⟩
  | .hbm, ⟨3, _⟩ => ⟨S1x1, .f32⟩
  | .hbm, ⟨4, _⟩ => ⟨S_, .f32⟩
  | .local _ .vmem, ⟨0, _⟩ => ⟨S8192x2, .f32⟩
  | .local _ .vmem, ⟨1, _⟩ => ⟨S8192x2, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S16777216x1 : S16777216.ShapeCasts S16777216x1
  inb_S1x1_S1x1_0_0 : ∀ a, (![0, 0] : Fin 2 → Nat) a + S1x1.size a ≤ S1x1.size a
  h_S1x1 : 0 < S1x1.numel
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  slices_S8192x2_o0_1_S8192x1 : S8192x2.Slices ![0, 1] S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S16777216x1.size a
  hwx0_1 : ∀ i : grid0.Coords, EltTy.bits .i32 = 32 ∨ (Rect.block (s := S16777216x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩
abbrev S16777216x1x1 : Shape := ⟨3, ![16777216, 1, 1]⟩
abbrev S1 : Shape := ⟨1, ![1]⟩
abbrev S1x1x1 : Shape := ⟨3, ![1, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S_, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216x1, .f32⟩
  | .hbm, ⟨8, _⟩ => ⟨S16777216x2, .f32⟩
  | .hbm, ⟨9, _⟩ => ⟨S16777216x2, .f32⟩
  | .hbm, ⟨10, _⟩ => ⟨S16777216x2, .f32⟩
  | .hbm, ⟨11, _⟩ => ⟨S_, .f32⟩
  | .hbm, ⟨12, _⟩ => ⟨S16777216, .f32⟩
  | .hbm, ⟨13, _⟩ => ⟨S16777216x1, .f32⟩
  | .hbm, ⟨14, _⟩ => ⟨S16777216x1, .f32⟩
  | .hbm, ⟨15, _⟩ => ⟨S16777216x2, .f32⟩
  | .hbm, ⟨16, _⟩ => ⟨S16777216x2, .f32⟩
  | .hbm, ⟨17, _⟩ => ⟨S16777216x1, .i32⟩
  | .hbm, ⟨18, _⟩ => ⟨S_, .i32⟩
  | .hbm, ⟨19, _⟩ => ⟨S16777216x1, .i32⟩
  | .hbm, ⟨20, _⟩ => ⟨S16777216x1, .i1⟩
  | .hbm, ⟨21, _⟩ => ⟨S_, .i32⟩
  | .hbm, ⟨22, _⟩ => ⟨S16777216x1, .i32⟩
  | .hbm, ⟨23, _⟩ => ⟨S16777216x1, .i32⟩
  | .hbm, ⟨24, _⟩ => ⟨S16777216x1, .i32⟩
  | .hbm, ⟨25, _⟩ => ⟨S16777216x1x1, .i32⟩
  | .hbm, ⟨26, _⟩ => ⟨S1, .i32⟩
  | .hbm, ⟨27, _⟩ => ⟨S_, .i32⟩
  | .hbm, ⟨28, _⟩ => ⟨S16777216x1x1, .i32⟩
  | .hbm, ⟨29, _⟩ => ⟨S16777216x1x1, .i1⟩
  | .hbm, ⟨30, _⟩ => ⟨S1x1x1, .i32⟩
  | .hbm, ⟨31, _⟩ => ⟨S16777216x1x1, .i32⟩
  | .hbm, ⟨32, _⟩ => ⟨S16777216x1x1, .i1⟩
  | .hbm, ⟨33, _⟩ => ⟨S16777216x1x1, .i1⟩
  | .hbm, ⟨34, _⟩ => ⟨S_, .i1⟩
  | .hbm, ⟨35, _⟩ => ⟨S16777216x1, .i1⟩
  | .hbm, ⟨36, _⟩ => ⟨S16777216x1, .f32⟩
  | .hbm, ⟨37, _⟩ => ⟨S_, .f32⟩
  | .hbm, ⟨38, _⟩ => ⟨S16777216x1, .f32⟩
  | .hbm, ⟨39, _⟩ => ⟨S16777216x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16777216x1, .f32⟩
  | .hbm, ⟨46, _⟩ => ⟨S16777216, .f32⟩
  | .hbm, ⟨47, _⟩ => ⟨S16777216x1, .f32⟩
  | .hbm, ⟨48, _⟩ => ⟨S16777216, .f32⟩
  | .hbm, ⟨49, _⟩ => ⟨S_, .i32⟩
  | .hbm, ⟨50, _⟩ => ⟨S16777216, .i32⟩
  | .hbm, ⟨51, _⟩ => ⟨S16777216, .i1⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S16777216, .f32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_cst : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_c : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_v15 : Ref sig .tc := ⟨.hbm, 56, rfl⟩
abbrev main_v16 : Ref sig .tc := ⟨.hbm, 57, rfl⟩
abbrev main_cst_2 : Ref sig .tc := ⟨.hbm, 58, rfl⟩
abbrev main_v17 : Ref sig .tc := ⟨.hbm, 59, rfl⟩
abbrev main_v18 : Ref sig .tc := ⟨.hbm, 60, rfl⟩
abbrev main_cst_3 : Ref sig .tc := ⟨.hbm, 61, rfl⟩
abbrev main_v19 : Ref sig .tc := ⟨.hbm, 62, rfl⟩
abbrev main_cst_4 : Ref sig .tc := ⟨.hbm, 63, rfl⟩
abbrev main_v20 : Ref sig .tc := ⟨.hbm, 64, rfl⟩
abbrev main_cst_5 : Ref sig .tc := ⟨.hbm, 65, rfl⟩
abbrev main_v21 : Ref sig .tc := ⟨.hbm, 66, rfl⟩
abbrev main_v22 : Ref sig .tc := ⟨.hbm, 67, rfl⟩

abbrev nD : Nat := 1
abbrev τ : Topo := Topo.v7x

variable {F : FTy → Type} [FloatOps F]

class Facts₀ : Prop where
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  bcast_S_S16777216x1 : S_.BroadcastsInDim S16777216x1 (![] : Fin 0 → Fin S16777216x1.rank)
  shapeCasts_S16777216x1_S16777216x1x1 : S16777216x1.ShapeCasts S16777216x1x1
  bcast_S_S16777216x1x1 : S_.BroadcastsInDim S16777216x1x1 (![] : Fin 0 → Fin S16777216x1x1.rank)
  bcast_S1_S1x1x1_2 : S1.BroadcastsInDim S1x1x1 (![2] : Fin 1 → Fin S1x1x1.rank)
  bcast_S1x1x1_S16777216x1x1_0_1_2 : S1x1x1.BroadcastsInDim S16777216x1x1 (![0, 1, 2] : Fin 3 → Fin S16777216x1x1.rank)
  reducesTo_S16777216x1x1_S16777216x1_d2 : S16777216x1x1.ReducesTo [2] S16777216x1
  reducesTo_S16777216x1_S_d0_1 : S16777216x1.ReducesTo [0, 1] S_
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  reducesTo_S16777216_S_d0 : S16777216.ReducesTo [0] S_
  gather_S16777216x2_S16777216x1x1_S16777216x1_n_1_0_0_1_2_11_wf : GatherDims.WF S16777216x2 S16777216x1x1 S16777216x1 [] [1] [0] [1] [0] 2 ![1, 1]

variable [Facts₀]

def gather_S16777216x2_S16777216x1x1_S16777216x1_n_1_0_0_1_2_11 : GatherDims S16777216x2 S16777216x1x1 S16777216x1 where
  offsetDims := []
  collapsedSliceDims := [1]
  operandBatchingDims := [0]
  startIndicesBatchingDims := [0]
  startIndexMap := [1]
  indexVectorDim := 2
  sliceSizes := ![1, 1]
  wf := gather_S16777216x2_S16777216x1x1_S16777216x1_n_1_0_0_1_2_11_wf

class Facts : Prop extends Facts₀ where

variable [Facts]
-- ==== Proof.Words.lean ====
/-
  The float words the two programs spell, as the extended reals they denote: the hinge coefficient (the binary
  fraction nearest one tenth, the same word on both sides), the margin 5, the row count 2^24 the reference divides by
  and its exact reciprocal 2^-24 the kernel multiplies by, zero, and the three special patterns (the running maximum's
  start -inf, the precondition's +inf, and the fill pattern of an out-of-range label, which denotes the bottom element).
-/
import Idealize.ShloMosaic.PureOps.Ideal
import Idealize.ShloMosaic.PureOps.Ideal.Laws

noncomputable section

namespace Cert.Words

open Idealize.ShloMosaic

/-- The hinge coefficient: 13421773 / 2^27. -/
def tenth : ℝ := 13421773 / 134217728

theorem ofBits_tenth : Ideal.ofBits .f32 0x3DCCCCCD#32 = ((tenth : ℝ) : EReal) := by
  simp [Ideal.ofBits, Ideal.ieee, -EReal.coe_mul, tenth]; norm_num

theorem ofBits_five : Ideal.ofBits .f32 0x40A00000#32 = ((5 : ℝ) : EReal) := by
  simp [Ideal.ofBits, Ideal.ieee, -EReal.coe_mul]; norm_num

/-- The kernel's scale: exactly the reciprocal of the row count. -/
theorem ofBits_inv_rows : Ideal.ofBits .f32 0x33800000#32 = ((1 / 16777216 : ℝ) : EReal) := by
  simp [Ideal.ofBits, Ideal.ieee, -EReal.coe_mul]; norm_num

/-- The reference's divisor: the row count. -/
theorem ofBits_rows : Ideal.ofBits .f32 0x4B800000#32 = ((16777216 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_fill : Ideal.ofBits .f32 0x7FC00000#32 = ⊥ := by
  simp [Ideal.ofBits, Ideal.ieee]

end Cert.Words

end
-- ==== Proof.PreFacts.lean ====
/-
  What the precondition says, element by element. The printed predicate is the conjunction of two "all" reductions:
  every logit's absolute value is below +inf, and every label y satisfies 0 <= y and y < 2 as signed words.
  So every logit is neither infinity, hence a real, and every label is the word 0 or the word 1.
-/
import proofs.«422092_j60361470378721_3_alg».proof.Pre_finite_inputs
import proofs.«422092_j60361470378721_3_alg».proof.Proof.Words
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx

instance : Subsingleton Cert.Pre_finite_inputs.S_.Idx := ⟨fun a b => funext fun d => d.elim0⟩

/-- Under the precondition every logit is finite and every label is class 0 or class 1. -/
theorem decode [Cert.Pre_finite_inputs.Facts] (x : FVec Ideal Cert.Pre_finite_inputs.S16777216x2 .f32)
    (y : IVec Cert.Pre_finite_inputs.S16777216 32)
    (h : Cert.Pre_finite_inputs.fn (F := Ideal) x y = fun _ => 1#1) :
    (∀ i, x i = (((x i).toReal : ℝ) : EReal)) ∧ (∀ i, y i = 0#32 ∨ y i = 1#32) := by
  have h0 := congrFun h ix0
  dsimp only [Cert.Pre_finite_inputs.fn] at h0
  obtain ⟨hx, hy⟩ := IntOp.andi_eq_one.mp h0
  refine ⟨fun i => ?_, fun i => ?_⟩
  · have e := Host.reduce_andi_all _ _ _ _ ix0 hx i
    have e' : Ideal.cmp .olt (max (x i) (-(x i))) (Ideal.ofBits .f32 0x7F800000#32) = 1#1 := e
    rw [Words.ofBits_pos_inf] at e'
    have lt : max (x i) (-(x i)) < ⊤ := of_decide_eq_true ((StableHlo.Predicate.ofBool_eq_one_iff _).mp e')
    obtain ⟨h1, h2⟩ := max_lt_iff.mp lt
    have nb : x i ≠ ⊥ := fun hb => by rw [hb, EReal.neg_bot] at h2; exact lt_irrefl _ h2
    exact (EReal.coe_toReal (ne_of_lt h1) nb).symm
  · have e := Host.reduce_andi_all _ _ _ _ ix0 hy i
    obtain ⟨g, l⟩ := IntOp.andi_eq_one.mp
      (e : IntOp.andi (IntOp.cmpi .sge (y i) 0#32) (IntOp.cmpi .slt (y i) 2#32) = 1#1)
    have g' : (0#32 : BitVec 32).toInt ≤ (y i).toInt := IntOp.cmpi_sge.mp g
    have l' : (y i).toInt < (2#32 : BitVec 32).toInt := IntOp.cmpi_slt.mp l
    have a0 : (0#32 : BitVec 32).toInt = 0 := by decide
    have a1 : (1#32 : BitVec 32).toInt = 1 := by decide
    have a2 : (2#32 : BitVec 32).toInt = 2 := by decide
    have hcases : (y i).toInt = 0 ∨ (y i).toInt = 1 := by omega
    rcases hcases with hz | ho
    · exact Or.inl (BitVec.eq_of_toInt_eq (hz.trans a0.symm))
    · exact Or.inr (BitVec.eq_of_toInt_eq (ho.trans a1.symm))

end Cert.PreFacts

end
-- ==== Proof.TilePieces.lean ====
/-
  What one grid point leaves in the accumulator's staging buffer, as a value.
  The accumulator is a single f32 cell. At the first point the body stores zero into it, reads that zero back and stores
  zero + (the tile's weighted partial sum); at every later point it reads the running total the point before left and
  stores that total + (the tile's weighted partial sum). In both cases the last store covers the cell, so what the point
  leaves is that store's payload: the body's one arithmetic term, applied to the point's two input blocks and to the cell's
  contents before the update (zero at the first point, the running total afterwards).
-/
import proofs.«422092_j60361470378721_3_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem origin : (![0, 0] : Fin 2 → Nat) = fun _ => 0 := funext fun a => by fin_cases a <;> rfl

/-- A later point: the cell, holding the running total, ends at the update of that total by this tile. -/
theorem left_after (c : Dev nD) (i : grid0.Coords) (a1 : Memref sig .tc .vmem S8192x2 .f32) (h1 : a1.IsWhole)
    (a2 : Memref sig .tc .vmem S8192x1 .i32) (h2 : a2.IsWhole) (a3 : Memref sig .tc .vmem S1x1 .f32) (h3 : a3.IsWhole)
    (hc : ¬cond0_0 i) (logits : Vec F S8192x2 .f32) (labels : Vec F S8192x1 .i32) (total : Vec F S1x1 .f32) :
    out0_B_2 c i a1 h1 a2 h2 a3 h3 hc logits labels total = k0_pay2 logits labels total := by
  unfold out0_B_2
  rw [View.read_writes_eq_canon _ _ _ (cover0_B_2 c i a1 h1 a2 h2 a3 h3 hc logits labels total)]
  unfold kernelRun0_B
  dsimp only
  rw [View.canon_unit_zero origin]
  simp only [View.readAt_eq_ld, h1.read_unread, h2.read_unread, h3.read_unread, View.ld_unit_zero (S := S8192x2) origin,
    View.ld_unit_zero (S := S8192x1) origin, View.ld_unit_zero (S := S1x1) origin]

/-- The first point: the cell is reset to the zero store's payload and ends at the update of that zero by this tile. -/
theorem left_first (c : Dev nD) (i : grid0.Coords) (a1 : Memref sig .tc .vmem S8192x2 .f32) (h1 : a1.IsWhole)
    (a2 : Memref sig .tc .vmem S8192x1 .i32) (h2 : a2.IsWhole) (a3 : Memref sig .tc .vmem S1x1 .f32) (h3 : a3.IsWhole)
    (hc : cond0_0 i) (logits : Vec F S8192x2 .f32) (labels : Vec F S8192x1 .i32) :
    out0_A_2 c i a1 h1 a2 h2 a3 h3 hc logits labels = k0_pay2 logits labels k0_pay1 := by
  unfold out0_A_2
  rw [View.read_writes_eq_canon _ _ _ (cover0_A_2 c i a1 h1 a2 h2 a3 h3 hc logits labels)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S8192x2) origin,
    View.ld_unit_zero (S := S8192x1) origin, View.ld_unit_zero (S := S1x1) origin]

end Cert.KernelIdeal.Acc

end
-- ==== Proof.RowLoss.lean ====
/-
  One row of the loss, over the reals. A row holds two logits a, b and a label; with z saying "the label is class 0",
  the cross-entropy of the row is  max a b + log (exp (a - max a b) + exp (b - max a b)) - (the labelled logit),
  and its margin hinge is  max ((the other logit - the labelled one) + 5) 0.
  Both programs compute these two numbers per row from finite logits; this module says so for the extended-real
  expressions each of them spells (the log-sum-exp's argument is a sum of two positive reals, so the logarithm never
  leaves the reals), proves that a finite sum of reals is the sum of its terms in the extended reals, and that a sum
  over the 2^24 rows is the sum over the 2048 tiles of the sums over each tile's 8192 rows.
-/
import proofs.«422092_j60361470378721_3_alg».proof.Proof.Words
import Idealize.ShloMosaic.PureOps.Ideal
import Idealize.ShloMosaic.PureOps.Ideal.Laws
import Idealize.ShloMosaic.Lib.ValueIdx
import Idealize.ShloMosaic.Lib.Affine

noncomputable section

namespace Cert.RowLoss

open Idealize.ShloMosaic

/-- The cross-entropy of a row with logits a, b whose label is class 0 exactly when z. -/
def ce (a b : ℝ) (z : Bool) : ℝ :=
  max a b + Real.log (Real.exp (a - max a b) + Real.exp (b - max a b)) - (if z then a else b)

/-- The margin hinge of the row. -/
def hinge (a b : ℝ) (z : Bool) : ℝ :=
  max ((if z then b - a else a - b) + 5) 0

theorem coe_max (a b : ℝ) : max (a : EReal) (b : EReal) = ((max a b : ℝ) : EReal) :=
  (EReal.coe_strictMono.monotone.map_max).symm

theorem expsum_pos (a b c : ℝ) : 0 < Real.exp (a - c) + Real.exp (b - c) :=
  add_pos (Real.exp_pos _) (Real.exp_pos _)

/-- The logarithm of the two shifted exponentials' sum, on real logits and a real shift, is a real. -/
theorem log_expsum (a b c : ℝ) :
    Ideal.log (Ideal.exp ((a : EReal) - (c : EReal)) + Ideal.exp ((b : EReal) - (c : EReal)))
      = ((Real.log (Real.exp (a - c) + Real.exp (b - c)) : ℝ) : EReal) := by
  rw [← EReal.coe_sub, ← EReal.coe_sub, Ideal.exp_coe, Ideal.exp_coe, ← EReal.coe_add, Ideal.log_coe,
    if_neg (not_le.mpr (expsum_pos a b c))]

/-- The row's cross-entropy as the kernel spells it: the maximum plus the log-sum-exp of the shifted logits, less the
    labelled logit. -/
theorem ce_kernel (a b : ℝ) (z : Bool) :
    (max (a : EReal) (b : EReal)
        + Ideal.log (Ideal.exp ((a : EReal) - max (a : EReal) (b : EReal)) + Ideal.exp ((b : EReal) - max (a : EReal) (b : EReal))))
      - (if z then (a : EReal) else (b : EReal)) = ((ce a b z : ℝ) : EReal) := by
  rw [coe_max, log_expsum, ← EReal.coe_add]
  cases z
  · rw [if_neg (by decide), ← EReal.coe_sub]; simp [ce]
  · rw [if_pos rfl, ← EReal.coe_sub]; simp [ce]

/-- The labelled entry of the row's log-softmax as the reference spells it: the shifted labelled logit less the
    logarithm of the shifted exponentials' sum. It is minus the row's cross-entropy. -/
theorem ce_reference (a b : ℝ) (z : Bool) :
    ((if z then (a : EReal) else (b : EReal)) - max (a : EReal) (b : EReal))
      - Ideal.log (Ideal.exp ((a : EReal) - max (a : EReal) (b : EReal)) + Ideal.exp ((b : EReal) - max (a : EReal) (b : EReal)))
      = ((-(ce a b z) : ℝ) : EReal) := by
  rw [coe_max, log_expsum]
  cases z
  · rw [if_neg (by decide), ← EReal.coe_sub, ← EReal.coe_sub]; congr 1; simp only [ce, Bool.false_eq_true, if_false]; ring
  · rw [if_pos rfl, ← EReal.coe_sub, ← EReal.coe_sub]; congr 1; simp only [ce, if_true]; ring

/-- The row's hinge as both programs spell it. -/
theorem hinge_eq (a b : ℝ) (z : Bool) :
    max ((if z then (b : EReal) - (a : EReal) else (a : EReal) - (b : EReal)) + ((5 : ℝ) : EReal)) ((0 : ℝ) : EReal)
      = ((hinge a b z : ℝ) : EReal) := by
  cases z
  · rw [if_neg (by decide), ← EReal.coe_sub, ← EReal.coe_add, coe_max]; simp [hinge]
  · rw [if_pos rfl, ← EReal.coe_sub, ← EReal.coe_add, coe_max]; simp [hinge]

/-- A finite sum of reals, read in the extended reals, is the sum of its terms there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row k of tile t is row 8192 t + k of the array. -/
def rowOf (t : Fin 2048) (k : Fin 8192) : Fin 16777216 :=
  ⟨8192 * t.val + k.val, by have := t.isLt; have := k.isLt; omega⟩

/-- A sum over all rows is the sum over the tiles of the sums over each tile's rows. -/
theorem sum_rows {M : Type} [AddCommMonoid M] (f : Fin 16777216 → M) :
    ∑ i, f i = ∑ t : Fin 2048, ∑ k : Fin 8192, f (rowOf t k) := by
  rw [← Fintype.sum_prod_type']
  refine (Fintype.sum_equiv (finProdFinEquiv (m := 2048) (n := 8192)) (fun x => f (rowOf x.1 x.2))
    (fun i : Fin (2048 * 8192) => f ⟨i.val, i.isLt⟩) (fun x => ?_)).symm
  exact congrArg f (Fin.ext (Nat.add_comm _ _))

/-- A selection on "the label is class 0" is a choice on that proposition. -/
theorem pick {α : Type} (y : BitVec 32) (a b : α) :
    Scalar.select (IntOp.cmpi .eq y 0#32) a b = if decide (y = 0#32) then a else b := by
  by_cases h : y = 0#32
  · rw [if_pos (decide_eq_true h), IntOp.cmpi_eq.mpr h]; exact ValueIdx.select_one a b
  · rw [if_neg (fun e => h (of_decide_eq_true e)), ValueIdx.eq_zero_of_ne_one (fun e => h (IntOp.cmpi_eq.mp e))]
    exact ValueIdx.select_zero a b

/-- The loss over the reals as the reference arranges it: minus the mean of the rows' minus-cross-entropies, plus the hinge
    coefficient times the mean of the rows' hinges; each mean a total times the reciprocal of the row count. -/
def lossOf (ces hs : Fin 16777216 → ℝ) : ℝ :=
  -((∑ i, -(ces i)) * (1 / 16777216)) + Words.tenth * ((∑ i, hs i) * (1 / 16777216))

/-- The kernel's arrangement is the same number: the sum over the tiles of each tile's (cross-entropy total plus coefficient
    times hinge total) times the reciprocal of the row count. Both are finite sums of reals: distribute and regroup. -/
theorem tiles_eq (ces hs : Fin 16777216 → ℝ) :
    ∑ t : Fin 2048, ((∑ k : Fin 8192, ces (rowOf t k)) + Words.tenth * ∑ k : Fin 8192, hs (rowOf t k)) * (1 / 16777216)
      = lossOf ces hs := by
  unfold lossOf
  rw [Finset.sum_neg_distrib, sum_rows ces, sum_rows hs, ← Finset.sum_mul, Finset.sum_add_distrib, ← Finset.mul_sum]
  ring

end Cert.RowLoss

end
-- ==== Proof.TileValue.lean ====
/-
  The body's one arithmetic term, read at the accumulator cell.
  Given a tile's block of logits (8192 rows of two), its block of labels (8192 rows of one) and the cell's contents acc
  before the update, the term is
      acc + ((sum over the tile's rows of the row's cross-entropy) + c * (sum over the rows of the row's hinge)) * s
  with c the hinge coefficient's word and s the word of 2^-24: the two column sums are the body's two reductions down the
  tile's single column, each row's entry a function of that row's two logits and its label only.
  On finite logits every row term is a real (RowLoss), so with acc a real the updated cell is the real
      acc + ((sum of ce) + tenth * (sum of hinge)) / 2^24.
-/
import proofs.«422092_j60361470378721_3_alg».proof.Proof.Gen.KernelIdeal.Skeleton
import proofs.«422092_j60361470378721_3_alg».proof.Proof.RowLoss
import proofs.«422092_j60361470378721_3_alg».proof.Proof.Words
import Idealize.ShloMosaic.Lib.ValueIdx
import Idealize.ShloMosaic.Lib.Pipeline.Value
import Idealize.ShloMosaic.Lib.Affine
import Idealize.ShloMosaic.PureOps.Ideal.Laws

noncomputable section

namespace Cert.KernelIdeal.Tile

open Idealize.ShloMosaic Idealize.ShloMosaic.ValueIdx
open Cert.KernelIdeal Cert.KernelIdeal.Gen

/-- A row's cross-entropy on extended reals: the maximum plus the log-sum-exp of the shifted logits, less the labelled one. -/
def ceE (a b : EReal) (y : BitVec 32) : EReal :=
  (max a b + Ideal.log (Ideal.exp (a - max a b) + Ideal.exp (b - max a b))) - Scalar.select (IntOp.cmpi .eq y 0#32) a b

/-- A row's hinge on extended reals. -/
def hingeE (a b : EReal) (y : BitVec 32) : EReal :=
  max (Scalar.select (IntOp.cmpi .eq y 0#32) (b - a) (a - b) + Ideal.ofBits .f32 0x40A00000#32) (Ideal.ofBits .f32 0x00000000#32)

/-- The body's cross-entropy column, at a row: a function of that row's entries. -/
theorem ce_at (A B : FVec Ideal S8192x1 .f32) (X : IVec S8192x1 32) (i : S8192x1.Idx) :
    subf (addf (maximumf A B) (log (addf (exp (subf A (maximumf A B))) (exp (subf B (maximumf A B))))))
        (select (cmpi .eq X (broadcast S8192x1 0#32)) A B) i
      = ceE (A i) (B i) (X i) := rfl

/-- The body's hinge column, at a row. -/
theorem hinge_at (A B : FVec Ideal S8192x1 .f32) (X : IVec S8192x1 32) (i : S8192x1.Idx) :
    maximumf (addf (select (cmpi .eq X (broadcast S8192x1 0#32)) (subf B A) (subf A B))
        (broadcast S8192x1 (FloatOps.ofBits .f32 0x40A00000#32))) (broadcast S8192x1 (FloatOps.ofBits .f32 0x00000000#32)) i
      = hingeE (A i) (B i) (X i) := rfl

/-- Column 0 of the logits block, at row k. -/
theorem col0 (x0 : Vec Ideal S8192x2 .f32) (k : Fin 8192) :
    extractStridedSlice S8192x1 ![0, 0] x0 slices_S8192x2_o0_0_S8192x1 (ix2 k 0) = x0 (ix2 k 0) :=
  extractStridedSlice_apply _ x0 _ (ix2 k 0) (ix2 k 0) fun a => by
    match a with
    | ⟨0, _⟩ => exact (Nat.zero_add _).symm
    | ⟨1, _⟩ => rfl

/-- Column 1 of the logits block, at row k. -/
theorem col1 (x0 : Vec Ideal S8192x2 .f32) (k : Fin 8192) :
    extractStridedSlice S8192x1 ![0, 1] x0 slices_S8192x2_o0_1_S8192x1 (ix2 k 0) = x0 (ix2 k 1) :=
  extractStridedSlice_apply _ x0 _ (ix2 k 0) (ix2 k 1) fun a => by
    match a with
    | ⟨0, _⟩ => exact (Nat.zero_add _).symm
    | ⟨1, _⟩ => rfl

/-- The sum down a tile's single column, landed in the one-by-one cell: the sum over the tile's rows. -/
theorem colsum (v : FVec Ideal S8192x1 .f32) (j : S1x1.Idx) :
    shapeCast S1x1 (multiReduction .add [0] S1 v 0x00000000#32 reduces_S8192x1_S1 (.inl rfl) rfl) shapeCasts_S1_S1x1 j
      = ∑ k : Fin 8192, v (ix2 k 0) := by
  unfold shapeCast
  refine (Ideal.multiReduction_add_total v _ reduces_S8192x1_S1 (fun b => by match b with | ⟨0, _⟩ => rfl) (.inl rfl) rfl _).trans ?_
  refine (sum_idx2 v).trans (Finset.sum_congr rfl fun k _ => ?_)
  exact Fin.sum_univ_one _

/-- The update of the cell by one tile, on extended reals. -/
theorem update_apply (x0 : Vec Ideal S8192x2 .f32) (x1 : Vec Ideal S8192x1 .i32) (acc : Vec Ideal S1x1 .f32) (j : S1x1.Idx) :
    k0_pay2 (F := Ideal) x0 x1 acc j
      = acc j + ((∑ k : Fin 8192, ceE (x0 (ix2 k 0)) (x0 (ix2 k 1)) (x1 (ix2 k 0)))
          + Ideal.ofBits .f32 0x3DCCCCCD#32 * ∑ k : Fin 8192, hingeE (x0 (ix2 k 0)) (x0 (ix2 k 1)) (x1 (ix2 k 0)))
        * Ideal.ofBits .f32 0x33800000#32 := by
  unfold k0_pay2
  dsimp only
  rw [shapeCast_self]
  simp only [addf_apply, mulf_apply, broadcast_apply]
  rw [colsum, colsum]
  simp only [ce_at, hinge_at, shapeCast_self]
  have hc : ∀ k : Fin 8192, ceE (extractStridedSlice S8192x1 ![0, 0] x0 slices_S8192x2_o0_0_S8192x1 (ix2 k 0))
      (extractStridedSlice S8192x1 ![0, 1] x0 slices_S8192x2_o0_1_S8192x1 (ix2 k 0)) (x1 (ix2 k 0))
        = ceE (x0 (ix2 k 0)) (x0 (ix2 k 1)) (x1 (ix2 k 0)) := fun k => by rw [col0, col1]
  have hh : ∀ k : Fin 8192, hingeE (extractStridedSlice S8192x1 ![0, 0] x0 slices_S8192x2_o0_0_S8192x1 (ix2 k 0))
      (extractStridedSlice S8192x1 ![0, 1] x0 slices_S8192x2_o0_1_S8192x1 (ix2 k 0)) (x1 (ix2 k 0))
        = hingeE (x0 (ix2 k 0)) (x0 (ix2 k 1)) (x1 (ix2 k 0)) := fun k => by rw [col0, col1]
  rw [Finset.sum_congr rfl fun k _ => hc k, Finset.sum_congr rfl fun k _ => hh k]
  rfl

/-- A row's cross-entropy on real logits is the real one. -/
theorem ceE_coe (a b : ℝ) (y : BitVec 32) :
    ceE (a : EReal) (b : EReal) y = ((RowLoss.ce a b (decide (y = 0#32)) : ℝ) : EReal) := by
  unfold ceE; rw [RowLoss.pick]; exact RowLoss.ce_kernel a b _

/-- A row's hinge on real logits is the real one. -/
theorem hingeE_coe (a b : ℝ) (y : BitVec 32) :
    hingeE (a : EReal) (b : EReal) y = ((RowLoss.hinge a b (decide (y = 0#32)) : ℝ) : EReal) := by
  unfold hingeE; rw [RowLoss.pick, Words.ofBits_five, Words.ofBits_zero]; exact RowLoss.hinge_eq a b _

/-- The tile's weighted partial sum over the reals, already divided by the row count: p the tile's logits, z its labels
    ("is class 0"). -/
def partialOf (p : Fin 8192 → Fin 2 → ℝ) (z : Fin 8192 → Bool) : ℝ :=
  ((∑ k : Fin 8192, RowLoss.ce (p k 0) (p k 1) (z k)) + Words.tenth * ∑ k : Fin 8192, RowLoss.hinge (p k 0) (p k 1) (z k))
    * (1 / 16777216)

/-- The update of the cell by one tile of finite logits, from a real running total: the total plus the tile's partial sum. -/
theorem update_real (x0 : Vec Ideal S8192x2 .f32) (x1 : Vec Ideal S8192x1 .i32) (acc : Vec Ideal S1x1 .f32)
    (p : Fin 8192 → Fin 2 → ℝ) (hp : ∀ k e, x0 (ix2 k e) = ((p k e : ℝ) : EReal)) (A : ℝ) (j : S1x1.Idx)
    (hA : acc j = ((A : ℝ) : EReal)) :
    k0_pay2 (F := Ideal) x0 x1 acc j
      = ((A + partialOf p (fun k => decide (x1 (ix2 k 0) = 0#32)) : ℝ) : EReal) := by
  have e1 : (∑ k : Fin 8192, ceE (x0 (ix2 k 0)) (x0 (ix2 k 1)) (x1 (ix2 k 0)))
      = ((∑ k : Fin 8192, RowLoss.ce (p k 0) (p k 1) (decide (x1 (ix2 k 0) = 0#32)) : ℝ) : EReal) :=
    (Finset.sum_congr rfl fun k _ => by rw [hp k 0, hp k 1]; exact ceE_coe _ _ _).trans (RowLoss.coe_sum _ _).symm
  have e2 : (∑ k : Fin 8192, hingeE (x0 (ix2 k 0)) (x0 (ix2 k 1)) (x1 (ix2 k 0)))
      = ((∑ k : Fin 8192, RowLoss.hinge (p k 0) (p k 1) (decide (x1 (ix2 k 0) = 0#32)) : ℝ) : EReal) :=
    (Finset.sum_congr rfl fun k _ => by rw [hp k 0, hp k 1]; exact hingeE_coe _ _ _).trans (RowLoss.coe_sum _ _).symm
  rw [update_apply, hA, e1, e2, Words.ofBits_tenth, Words.ofBits_inv_rows, ← EReal.coe_mul, ← EReal.coe_add,
    ← EReal.coe_mul, ← EReal.coe_add]
  rfl

end Cert.KernelIdeal.Tile

end
-- ==== Proof.GridValue.lean ====
/-
  The kernel's result, over the whole grid.
  Tile t holds rows 8192 t .. 8192 t + 8191 of the logits and of the labels (the labels reach the region reshaped to one
  column, the same words in the same order). By TileValue each point adds its tile's partial sum to the accumulator cell,
  which starts from zero at the first point; so after point n the cell holds the sum of the partial sums of tiles 0..n
  (induction on the point). The cell is written back once, after the last point, to the one-by-one result array, which the
  line after the region reshapes to the scalar result. On finite logits every partial sum is a real, so the result is the
  real sum over all 2048 tiles.
-/
import proofs.«422092_j60361470378721_3_alg».proof.Proof.TilePieces
import proofs.«422092_j60361470378721_3_alg».proof.Proof.TileValue
import Idealize.ShloMosaic.Lib.Pipeline.Value
import Idealize.ShloMosaic.Lib.StableHlo.Run
import Idealize.ShloMosaic.Lib.Tactic

noncomputable section

namespace Cert.KernelIdeal.Grid

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Both input windows walk the row blocks in order: block index (t, 0) at point t. -/
theorem walk0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem walk1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row k of tile t of the logits is row 8192 t + k of the argument. -/
theorem logits_block (c : Dev nD) (t : Fin cfg0.N) (k : Fin 8192) (e : Fin 2) (hr : 8192 * t.val + k.val < 16777216) :
    (iblk m c 0 t : Vec Ideal S8192x2 .f32) (ix2 k e) = m ((c : Thread nD τ).loc main_arg0) (ix2 ⟨8192 * t.val + k.val, hr⟩ e) := by
  unfold iblk
  rw [View.read_apply]
  show V m c main_arg0 _ = _
  rw [V_main_arg0]
  refine congrArg _ (funext fun a => Fin.ext ?_)
  match a with
  | ⟨0, _⟩ => show win0_0.index t 0 * 8192 + 1 * k.val = 8192 * t.val + k.val; rw [(walk0 t).1]; omega
  | ⟨1, _⟩ => show win0_0.index t 1 * 2 + 1 * e.val = e.val; rw [(walk0 t).2]; omega

/-- The labels as the region finds them: the argument's words in one column. -/
theorem labels_entry (c : Dev nD) :
    (V m c main_v0 : S16777216x1.Idx → BitVec 32)
      = shapeCast S16777216x1 (m ((c : Thread nD τ).loc main_arg1)) shapeCasts_S16777216_S16777216x1 := by
  show StableHlo.after hostOps0 (fun b => m (c, b)) (Proc.devRef .tc main_v0) = _
  after_results
  rfl

/-- Row k of tile t of the labels is label 8192 t + k of the argument. -/
theorem labels_block (c : Dev nD) (t : Fin cfg0.N) (k : Fin 8192) (hr : 8192 * t.val + k.val < 16777216) :
    (iblk m c 1 t : Vec Ideal S8192x1 .i32) (ix2 k 0) = m ((c : Thread nD τ).loc main_arg1) (ix1 ⟨8192 * t.val + k.val, hr⟩) := by
  unfold iblk
  rw [View.read_apply]
  show V m c main_v0 _ = _
  rw [labels_entry]
  have he : ((cfg0.win 1).blk t).view.emb (ix2 k (0 : Fin 1)) = ix2 ⟨8192 * t.val + k.val, hr⟩ (0 : Fin 1) :=
    funext fun a => Fin.ext (by
      match a with
      | ⟨0, _⟩ => show win0_1.index t 0 * 8192 + 1 * k.val = 8192 * t.val + k.val; rw [(walk1 t).1]; omega
      | ⟨1, _⟩ => show win0_1.index t 1 * 1 + 1 * 0 = 0; rw [(walk1 t).2])
  rw [he]
  exact shapeCast_apply _ shapeCasts_S16777216_S16777216x1 _ (ix1 ⟨8192 * t.val + k.val, hr⟩)
    (by rw [Shape.rowMajor_val_one, Shape.rowMajor_val_two]
        show 8192 * t.val + k.val = (8192 * t.val + k.val) * 1 + 0; omega)

variable (P : Fin 16777216 → Fin 2 → ℝ)

/-- Tile n's partial sum over the reals (zero past the last tile): P the reals behind the logits, a label's "is class 0" read
    off the argument. -/
def tileOf (c : Dev nD) (n : ℕ) : ℝ :=
  if h : n < 2048 then
    Tile.partialOf (fun k e => P (RowLoss.rowOf ⟨n, h⟩ k) e)
      (fun k => decide (m ((c : Thread nD τ).loc main_arg1) (ix1 (RowLoss.rowOf ⟨n, h⟩ k)) = 0#32))
  else 0

/-- The running total after point n. -/
def running (c : Dev nD) (n : ℕ) : ℝ := ∑ t ∈ Finset.range (n + 1), tileOf m P c t

/-- One point's update, at its own blocks: a real running total grows by the tile's partial sum. -/
theorem point_update (c : Dev nD) (hP : ∀ i e, m ((c : Thread nD τ).loc main_arg0) (ix2 i e) = ((P i e : ℝ) : EReal))
    (t : Fin cfg0.N) (acc : Vec Ideal S1x1 .f32) (A : ℝ) (j : S1x1.Idx) (hA : acc j = ((A : ℝ) : EReal)) :
    k0_pay2 (F := Ideal) (iblk m c 0 t) (iblk m c 1 t) acc j = ((A + tileOf m P c t.val : ℝ) : EReal) := by
  have hN : t.val < 2048 := lt_of_lt_of_eq t.isLt N_0
  refine (Tile.update_real (iblk m c 0 t) (iblk m c 1 t) acc (fun k e => P (RowLoss.rowOf ⟨t.val, hN⟩ k) e)
    (fun k e => ?_) A j hA).trans ?_
  · exact (logits_block m c t k e (RowLoss.rowOf ⟨t.val, hN⟩ k).isLt).trans (hP _ _)
  · unfold tileOf
    rw [dif_pos hN]
    have hz : (fun k : Fin 8192 => decide ((iblk m c 1 t : Vec Ideal S8192x1 .i32) (ix2 k 0) = 0#32))
        = fun k : Fin 8192 => decide (m ((c : Thread nD τ).loc main_arg1) (ix1 (RowLoss.rowOf ⟨t.val, hN⟩ k)) = 0#32) :=
      funext fun k => by rw [labels_block m c t k (RowLoss.rowOf ⟨t.val, hN⟩ k).isLt]; rfl
    rw [hz]

/-- After point n the accumulator cell holds the running total of tiles 0..n. -/
theorem cell_after (c : Dev nD) (hP : ∀ i e, m ((c : Thread nD τ).loc main_arg0) (ix2 i e) = ((P i e : ℝ) : EReal)) :
    ∀ (n : ℕ) (hn : n < cfg0.N) (j : S1x1.Idx), outsAt0 m c n hn j = ((running m P c n : ℝ) : EReal)
  | 0, hn, j => by
    rw [outsAt0_A m c ⟨0, hn⟩ rfl]
    refine (congrFun (Acc.left_first (F := Ideal) c (grid0.coords ⟨0, hn⟩) (ms0_0 ⟨0, hn⟩) (hs0_0 ⟨0, hn⟩) (ms0_1 ⟨0, hn⟩)
      (hs0_1 ⟨0, hn⟩) (ms0_2 ⟨0, hn⟩) (hs0_2 ⟨0, hn⟩) ((hcond0_0 ⟨0, hn⟩).mpr rfl) (iblk m c 0 ⟨0, hn⟩) (iblk m c 1 ⟨0, hn⟩)) j).trans ?_
    refine (point_update m P c hP ⟨0, hn⟩ (k0_pay1 (F := Ideal)) 0 j Words.ofBits_zero).trans ?_
    unfold running
    rw [Finset.sum_range_one, zero_add]
  | n + 1, hn, j => by
    have hN : n + 1 < 2048 := lt_of_lt_of_eq hn N_0
    have hB : ¬(⟨n + 1, hn⟩ : Fin cfg0.N).val % 2048 = 0 := by dsimp only; omega
    rw [outsAt0_B m c ⟨n + 1, hn⟩ hB]
    refine (congrFun (Acc.left_after (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩)
      (fun h => hB ((hcond0_0 ⟨n + 1, hn⟩).mp h)) (iblk m c 0 ⟨n + 1, hn⟩) (iblk m c 1 ⟨n + 1, hn⟩)
      (outsAt0 m c ((⟨n + 1, hn⟩ : Fin cfg0.N).val - 1) (Nat.lt_of_le_of_lt (Nat.sub_le _ _) hn))) j).trans ?_
    refine (point_update m P c hP ⟨n + 1, hn⟩ _ (running m P c n) j (cell_after c hP n (Nat.lt_of_succ_lt hn) j)).trans ?_
    unfold running
    rw [Finset.sum_range_succ _ (n + 1)]

/-- The grand total: the running total after the last point. -/
def total (c : Dev nD) : ℝ := running m P c 2047

/-- The one-by-one result array at the grand total. -/
abbrev cell (c : Dev nD) : Buf (Elt Ideal) ((c : Thread nD τ).loc main_v1) := fun _ => ((total m P c : ℝ) : EReal)

/-- The one write-back, after the last point, writes the grand total. -/
theorem flushed_cell (c : Dev nD) (hP : ∀ i e, m ((c : Thread nD τ).loc main_arg0) (ix2 i e) = ((P i e : ℝ) : EReal))
    (t : Fin cfg0.N) (hf : (cfg0.win 2).flush t = true) :
    (dats m 0 c).flushed 2 t = ((cfg0.win 2).blk t).view.read (Elt Ideal) (cell m P c) := by
  have hN : t.val < 2048 := lt_of_lt_of_eq t.isLt N_0
  have h47 : t.val = 2047 := by have := (flush0_2 t).mp hf; omega
  show (cfg0.win 2).cut (grid0.coords t) ((dats m 0 c).after 2 t) = _
  rw [after0_2]
  have e : outsAt0 m c t.val t.isLt = fun _ => ((running m P c t.val : ℝ) : EReal) := funext (cell_after m P c hP t.val t.isLt)
  rw [e, h47]
  funext y
  rw [View.read_apply]
  rfl

/-- The result window never moves: block (0, 0) at every point. -/
theorem walk2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem last_lt : 2047 < cfg0.N := lt_of_lt_of_eq (by decide) N_0.symm

/-- So the one-by-one result array ends at the grand total: the last point's block is the whole array. -/
theorem final_cell (c : Dev nD) (hP : ∀ i e, m ((c : Thread nD τ).loc main_arg0) (ix2 i e) = ((P i e : ℝ) : EReal)) :
    (dats m 0 c).arrAt 2 cfg0.N = cell m P c :=
  (dats m 0 c).arrAt_eq_of_cover 2 (cell m P c) (flushed_cell m P c hP) fun i =>
    ⟨⟨2047, last_lt⟩, (flush0_2 _).mpr rfl, by
      show i ∈ ((View.whole main_v1).slice (win0_2.rect ⟨2047, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨2047, last_lt⟩ 0 * 1 ≤ (i 0 : Nat) ∧ (i 0 : Nat) < win0_2.index ⟨2047, last_lt⟩ 0 * 1 + 1
        rw [(walk2 ⟨2047, last_lt⟩).1]; omega
      | ⟨1, _⟩ =>
        show win0_2.index ⟨2047, last_lt⟩ 1 * 1 ≤ (i 1 : Nat) ∧ (i 1 : Nat) < win0_2.index ⟨2047, last_lt⟩ 1 * 1 + 1
        rw [(walk2 ⟨2047, last_lt⟩).2]; omega⟩

/-- The scalar result: the line after the region reshapes the one-by-one array, so it is the grand total. -/
theorem result_scalar (c : Dev nD) (hP : ∀ i e, m ((c : Thread nD τ).loc main_arg0) (ix2 i e) = ((P i e : ℝ) : EReal)) :
    Pipeline.afterTail₀ cfgs (dats m) 0 (V0 m) [hostOps1] c main_v2 = fun _ => ((total m P c : ℝ) : EReal) := by
  unfold Pipeline.afterTail₀
  show StableHlo.after hostOps1 _ (Proc.devRef .tc main_v2) = _
  after_results
  rw [Pipeline.withArrays_arr spec0 launch0.win.arr_inj c _ _ 2, final_cell m P c hP]
  rfl

/-- The kernel's run at the ideal values, its result named: on logits that are the reals Q (per device), every weakly fair
    execution ends with the scalar result at the grand total of the tiles' partial sums and the two arguments unchanged. -/
theorem run (Q : Dev nD → Fin 16777216 → Fin 2 → ℝ)
    (hQ : ∀ (c : Dev nD) i e, m ((c : Thread nD τ).loc main_arg0) (ix2 i e) = ((Q c i e : ℝ) : EReal)) :
    θ_run defs (onTc (τ := τ) (main (F := Ideal))) ⟨m, fun _ => 0, ρ⟩ fun r => ∀ c : Dev nD,
      r.2.mem ((c.tc : Thread nD τ).loc main_v2) = (fun _ => ((total m (Q c) c : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_scalar m (Q c) c (hQ c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The grand total is the loss of the rows' cross-entropies and hinges: the tiles' partial sums, regrouped by rows. -/
theorem total_eq (c : Dev nD) :
    total m P c
      = RowLoss.lossOf (fun i => RowLoss.ce (P i 0) (P i 1) (decide (m ((c : Thread nD τ).loc main_arg1) (ix1 i) = 0#32)))
          (fun i => RowLoss.hinge (P i 0) (P i 1) (decide (m ((c : Thread nD τ).loc main_arg1) (ix1 i) = 0#32))) := by
  unfold total running
  show ∑ t ∈ Finset.range 2048, tileOf m P c t = _
  rw [Finset.sum_range]
  refine Eq.trans (Finset.sum_congr rfl fun t _ => ?_) (RowLoss.tiles_eq _ _)
  unfold tileOf
  rw [dif_pos t.isLt]
  rfl

end Cert.KernelIdeal.Grid

end
-- ==== Proof.RefValue.lean ====
/-
  The reference's result, read stage by stage at an index, on finite logits and labels in {0, 1}.
  Row i of the log-softmax: with mu the larger logit, entry e is (logit e - mu) - log (exp (logit 0 - mu) + exp (logit 1 - mu))
  (the row maximum starts from -inf, which the larger of two reals absorbs; the row's exponentials sum from zero).
  The labelled entry: a label in {0, 1} is not shifted, passes both range tests, and the gather reads the row's own entry at
  the label, so the selected value is minus the row's cross-entropy. The first term of the loss is minus the mean of those,
  the second the hinge coefficient times the mean of the row hinges; both means divide a total over all rows by 2^24.
-/
import proofs.«422092_j60361470378721_3_alg».proof.Proof.RefRead
import proofs.«422092_j60361470378721_3_alg».proof.Proof.RowLoss
import proofs.«422092_j60361470378721_3_alg».proof.Proof.Words
import Idealize.ShloMosaic.Lib.ValueIdx
import Idealize.ShloMosaic.Lib.ValueIdxRank1
import Idealize.ShloMosaic.Lib.Affine
import Idealize.ShloMosaic.PureOps.Ideal.Laws

noncomputable section

namespace Cert.ReferenceIdeal.Loss

open Idealize.ShloMosaic Idealize.ShloMosaic.ValueIdx
open Cert.ReferenceIdeal Cert.ReferenceIdeal.Gen Cert.ReferenceIdeal.ReadP

/-! ## The printed index maps at a row -/

theorem i3 (i : Fin 16777216) : idx_main_call0_v3 (ix2 i (0 : Fin 1)) = ix1 i :=
  funext fun a => Fin.ext (by match a with | ⟨0, _⟩ => rfl)
theorem i4 (i : Fin 16777216) (e : Fin 2) : idx_main_call0_v4 (ix2 i e) = ix2 i (0 : Fin 1) :=
  funext fun a => Fin.ext (by match a with | ⟨0, _⟩ => rfl | ⟨1, _⟩ => rfl)
theorem i7 (i : Fin 16777216) (k : Fin 2) : idx_main_call0_v7 (ix1 i) k = ix2 i k :=
  funext fun a => Fin.ext (by match a with | ⟨0, _⟩ => rfl | ⟨1, _⟩ => rfl)
theorem i8 (i : Fin 16777216) : idx_main_call0_v8 (ix2 i (0 : Fin 1)) = ix1 i :=
  funext fun a => Fin.ext (by match a with | ⟨0, _⟩ => rfl)
theorem i10 (i : Fin 16777216) (e : Fin 2) : idx_main_call0_v10 (ix2 i e) = ix2 i (0 : Fin 1) :=
  funext fun a => Fin.ext (by match a with | ⟨0, _⟩ => rfl | ⟨1, _⟩ => rfl)
theorem j1 (i : Fin 16777216) : idx_main_v1 (ix2 i (0 : Fin 1)) = ix1 i :=
  funext fun a => Fin.ext (by match a with | ⟨0, _⟩ => rfl)
theorem j5 (i : Fin 16777216) : idx_main_call1_v5 (ix3 i (0 : Fin 1) (0 : Fin 1)) = ix2 i (0 : Fin 1) :=
  funext fun a => Fin.ext (by
    match a with
    | ⟨0, _⟩ => show ((i.val * 1 + 0) * 1 + 0) / 1 = i.val; omega
    | ⟨1, _⟩ => rfl)
theorem j6 (i : Fin 16777216) : idx_main_v6 (ix2 i (0 : Fin 1)) = ix2 i (0 : Fin 2) :=
  funext fun a => Fin.ext (by match a with | ⟨0, _⟩ => rfl | ⟨1, _⟩ => rfl)
theorem j7 (i : Fin 16777216) : idx_main_v7 (ix1 i) = ix2 i (0 : Fin 1) :=
  funext fun a => Fin.ext (by
    match a with
    | ⟨0, _⟩ => show i.val / 1 = i.val; omega
    | ⟨1, _⟩ => rfl)
theorem j8 (i : Fin 16777216) : idx_main_v8 (ix2 i (0 : Fin 1)) = ix2 i (1 : Fin 2) :=
  funext fun a => Fin.ext (by match a with | ⟨0, _⟩ => rfl | ⟨1, _⟩ => rfl)
theorem j9 (i : Fin 16777216) : idx_main_v9 (ix1 i) = ix2 i (0 : Fin 1) :=
  funext fun a => Fin.ext (by
    match a with
    | ⟨0, _⟩ => show i.val / 1 = i.val; omega
    | ⟨1, _⟩ => rfl)

/-- A fold over the two positions of an axis of extent two. -/
theorem fold_two {α : Type} (f : α → α → α) [Std.Commutative f] [Std.Associative f] (b : α) (g : Fin 2 → α) :
    (Finset.univ : Finset (Fin 2)).fold f b g = f (g 0) (f (g 1) b) := by
  rw [show (Finset.univ : Finset (Fin 2)) = insert 0 {1} from by decide, Finset.fold_insert (by decide), Finset.fold_singleton]

variable (x0 : (⟨S16777216x2, .f32⟩ : BufTy).Contents (Elt Ideal)) (x1 : (⟨S16777216, .i32⟩ : BufTy).Contents (Elt Ideal))
variable (P : Fin 16777216 → Fin 2 → ℝ)

/-! ## A row of the log-softmax -/

/-- The row maximum. -/
theorem rowmax (hP : ∀ i e, x0 (ix2 i e) = ((P i e : ℝ) : EReal)) (i : Fin 16777216) :
    val_main_call0_v2 (F := Ideal) x0 (ix1 i) = max ((P i 0 : ℝ) : EReal) ((P i 1 : ℝ) : EReal) := by
  have hr : S16777216x2.Reduces [1] S16777216 := by decide
  have hl : ∀ k : Fin 2, hr.lift (ix1 i) k = ix2 i k := fun k =>
    funext fun a => Fin.ext (by match a with | ⟨0, _⟩ => rfl | ⟨1, _⟩ => rfl)
  have e := (Host.reduce_eq_fold_single (FloatOps.maximumf (F := Ideal) (φ := .f32)) x0 (val_main_call0_cst (F := Ideal))
    reducesTo_S16777216x2_S16777216_d1 hr h_S_ (ix1 i)).trans (fold_two _ _ _)
  rw [val_main_call0_v2_apply, val_main_call0_v1_apply, val_main_call0_cst_0_apply]
  unfold val_main_call0_v0
  show max (Ideal.ofBits .f32 0xFF800000#32) (Host.reduce (FloatOps.maximumf (F := Ideal) (φ := .f32)) x0
    (val_main_call0_cst (F := Ideal)) reducesTo_S16777216x2_S16777216_d1 h_S_ (ix1 i)) = _
  rw [e]
  show max (Ideal.ofBits .f32 0xFF800000#32) (max (x0 (hr.lift (ix1 i) (0 : Fin 2)))
    (max (x0 (hr.lift (ix1 i) (1 : Fin 2))) (Ideal.ofBits .f32 0xFF800000#32))) = _
  rw [hl 0, hl 1, hP i 0, hP i 1, Words.ofBits_neg_inf, max_bot_right, max_bot_left]

/-- Entry e of row i of the shifted logits. -/
theorem shifted (hP : ∀ i e, x0 (ix2 i e) = ((P i e : ℝ) : EReal)) (i : Fin 16777216) (e : Fin 2) :
    val_main_call0_v5 (F := Ideal) x0 (ix2 i e) = ((P i e : ℝ) : EReal) - max ((P i 0 : ℝ) : EReal) ((P i 1 : ℝ) : EReal) := by
  rw [val_main_call0_v5_apply, val_main_call0_v4_apply, i4, val_main_call0_v3_apply, i3, rowmax x0 P hP i, hP i e]
  rfl

/-- The row's sum of shifted exponentials (it starts from zero). -/
theorem sumexp (hP : ∀ i e, x0 (ix2 i e) = ((P i e : ℝ) : EReal)) (i : Fin 16777216) :
    val_main_call0_v7 (F := Ideal) x0 (ix1 i)
      = Ideal.exp (((P i 0 : ℝ) : EReal) - max ((P i 0 : ℝ) : EReal) ((P i 1 : ℝ) : EReal))
        + Ideal.exp (((P i 1 : ℝ) : EReal) - max ((P i 0 : ℝ) : EReal) ((P i 1 : ℝ) : EReal)) := by
  rw [val_main_call0_v7_apply, Fin.sum_univ_two, i7, i7, val_main_call0_v6_apply, val_main_call0_v6_apply,
    shifted x0 P hP i 0, shifted x0 P hP i 1, val_main_call0_cst_1_apply]
  rw [Ideal.ofBits_def, Ideal.hostUnary_exp_def, Ideal.hostUnary_exp_def, Ideal.ofBits_zero_f32, zero_add]

/-- Entry e of row i of the log-softmax. -/
theorem logp (hP : ∀ i e, x0 (ix2 i e) = ((P i e : ℝ) : EReal)) (i : Fin 16777216) (e : Fin 2) :
    val_main_v0 (F := Ideal) x0 (ix2 i e)
      = (((P i e : ℝ) : EReal) - max ((P i 0 : ℝ) : EReal) ((P i 1 : ℝ) : EReal))
        - Ideal.log (Ideal.exp (((P i 0 : ℝ) : EReal) - max ((P i 0 : ℝ) : EReal) ((P i 1 : ℝ) : EReal))
          + Ideal.exp (((P i 1 : ℝ) : EReal) - max ((P i 0 : ℝ) : EReal) ((P i 1 : ℝ) : EReal))) := by
  rw [val_main_v0_apply, shifted x0 P hP i e, val_main_call0_v10_apply, i10, val_main_call0_v9_apply,
    val_main_call0_v8_apply, i8, sumexp x0 P hP i]
  rfl

/-! ## The labelled entry -/

/-- A label in {0, 1} is not negative: the row number the gather is given is the label itself. -/
theorem rownum (hY : ∀ i, x1 (ix1 i) = 0#32 ∨ x1 (ix1 i) = 1#32) (i : Fin 16777216) :
    val_main_call1_v5 (F := Ideal) x1 (ix3 i (0 : Fin 1) (0 : Fin 1)) = x1 (ix1 i) := by
  rw [val_main_call1_v5_apply, j5, val_main_call1_v4_apply, val_main_call1_v1_apply, val_main_v1_apply, j1,
    val_main_call1_v0_apply, val_main_call1_c_apply]
  rcases hY i with h | h
  · rw [h, show IntOp.cmpi .slt (0#32 : BitVec 32) 0#32 = 0#1 from by decide]; exact select_zero _ _
  · rw [h, show IntOp.cmpi .slt (1#32 : BitVec 32) 0#32 = 0#1 from by decide]; exact select_zero _ _

/-- A fold over the one position of an axis of extent one. -/
theorem fold_one {α : Type} (f : α → α → α) [Std.Commutative f] [Std.Associative f] (b : α) (g : Fin 1 → α) :
    (Finset.univ : Finset (Fin 1)).fold f b g = f (g 0) b := by
  rw [show (Finset.univ : Finset (Fin 1)) = {0} from by decide, Finset.fold_singleton]

/-- Both range tests pass at a label in {0, 1}: the row is kept. -/
theorem inrange (hY : ∀ i, x1 (ix1 i) = 0#32 ∨ x1 (ix1 i) = 1#32) (i : Fin 16777216) :
    val_main_call1_v12 (F := Ideal) x1 (ix2 i (0 : Fin 1)) = 1#1 := by
  have hr : S16777216x1x1.Reduces [2] S16777216x1 := by decide
  have hl : hr.lift (ix2 i (0 : Fin 1)) (0 : Fin 1) = ix3 i (0 : Fin 1) (0 : Fin 1) :=
    funext fun a => Fin.ext (by match a with | ⟨0, _⟩ => rfl | ⟨1, _⟩ => rfl | ⟨2, _⟩ => rfl)
  have e := (Host.reduce_eq_fold_single (IntOp.andi (w := 1)) (val_main_call1_v11 (F := Ideal) x1) (val_main_call1_c_3 (F := Ideal))
    reducesTo_S16777216x1x1_S16777216x1_d2 hr h_S_ (ix2 i (0 : Fin 1))).trans (fold_one _ _ _)
  unfold val_main_call1_v12
  rw [e]
  show IntOp.andi (val_main_call1_v11 (F := Ideal) x1 (hr.lift (ix2 i (0 : Fin 1)) (0 : Fin 1))) 1#1 = 1#1
  rw [hl, val_main_call1_v11_apply, val_main_call1_v7_apply, val_main_call1_v10_apply, rownum x1 hY i, val_main_call1_v6_apply,
    val_main_call1_c_2_apply, val_main_call1_v9_apply, val_main_call1_v8_apply, val_main_call1_c_1_apply]
  rcases hY i with h | h <;> rw [h] <;> decide

/-- The gather's two coordinates at row i: the row itself (a batching axis) and the clamped row number (the indexed axis). -/
theorem take_row (idx : IVec S16777216x1x1 32) (i : Fin 16777216) :
    (gather_S16777216x2_S16777216x1x1_S16777216x1_n_1_0_0_1_2_11.operandIdx (ix2 i (0 : Fin 1)) idx 0).val = i.val := by
  show gather_S16777216x2_S16777216x1x1_S16777216x1_n_1_0_0_1_2_11.start (ix2 i 0) idx 0
    + gather_S16777216x2_S16777216x1x1_S16777216x1_n_1_0_0_1_2_11.batchCoord (ix2 i 0) 0
    + gather_S16777216x2_S16777216x1x1_S16777216x1_n_1_0_0_1_2_11.offCoord (ix2 i 0) 0 = _
  have hb : (0 : Fin 2) ∈ gather_S16777216x2_S16777216x1x1_S16777216x1_n_1_0_0_1_2_11.operandBatchingDims := List.mem_singleton.2 rfl
  have hk : (0 : Fin 2) ∉ gather_S16777216x2_S16777216x1x1_S16777216x1_n_1_0_0_1_2_11.sKept := fun hm => ((GatherDims.mem_sKept _ _).1 hm).2 hb
  rw [GatherDims.start_batching _ _ _ _ hb, GatherDims.offCoord_eq_zero _ _ _ hk]
  simp only [Nat.zero_add, Nat.add_zero]
  unfold GatherDims.batchCoord
  rw [dif_pos hb]
  rfl

theorem take_col (idx : IVec S16777216x1x1 32) (i : Fin 16777216) :
    (gather_S16777216x2_S16777216x1x1_S16777216x1_n_1_0_0_1_2_11.operandIdx (ix2 i (0 : Fin 1)) idx 1).val
      = min (idx (ix3 i (0 : Fin 1) (0 : Fin 1))).toInt.toNat 1 := by
  show gather_S16777216x2_S16777216x1x1_S16777216x1_n_1_0_0_1_2_11.start (ix2 i 0) idx 1
    + gather_S16777216x2_S16777216x1x1_S16777216x1_n_1_0_0_1_2_11.batchCoord (ix2 i 0) 1
    + gather_S16777216x2_S16777216x1x1_S16777216x1_n_1_0_0_1_2_11.offCoord (ix2 i 0) 1 = _
  have h10 : ¬ (1 : Fin 2) = 0 := fun e => absurd (congrArg Fin.val e) Nat.one_ne_zero
  have hb : (1 : Fin 2) ∉ gather_S16777216x2_S16777216x1x1_S16777216x1_n_1_0_0_1_2_11.operandBatchingDims := fun hm => h10 (List.mem_singleton.1 hm)
  have hc : (1 : Fin 2) ∈ gather_S16777216x2_S16777216x1x1_S16777216x1_n_1_0_0_1_2_11.collapsedSliceDims := List.mem_singleton.2 rfl
  have hk : (1 : Fin 2) ∉ gather_S16777216x2_S16777216x1x1_S16777216x1_n_1_0_0_1_2_11.sKept := fun hm => ((GatherDims.mem_sKept _ _).1 hm).1 hc
  rw [GatherDims.batchCoord_eq_zero _ _ _ hb, GatherDims.offCoord_eq_zero _ _ _ hk]
  simp only [Nat.add_zero]
  have hm : (1 : Fin 2) ∈ gather_S16777216x2_S16777216x1x1_S16777216x1_n_1_0_0_1_2_11.startIndexMap := List.mem_singleton.2 rfl
  unfold GatherDims.start
  rw [dif_pos hm]
  have hsi : gather_S16777216x2_S16777216x1x1_S16777216x1_n_1_0_0_1_2_11.siIdx (ix2 i (0 : Fin 1))
      ⟨List.idxOf (1 : Fin 2) gather_S16777216x2_S16777216x1x1_S16777216x1_n_1_0_0_1_2_11.startIndexMap, List.idxOf_lt_length_iff.2 hm⟩
        = ix3 i (0 : Fin 1) (0 : Fin 1) := by
    funext b
    refine Fin.ext ?_
    match b with
    | ⟨0, _⟩ => rfl
    | ⟨1, _⟩ => rfl
    | ⟨2, _⟩ => rfl
  rw [hsi]
  rfl

/-- The class a label in {0, 1} names, as a position on the class axis. -/
def classOf (y : BitVec 32) : Fin 2 := if y = 0#32 then 0 else 1

/-- The gather reads row i of the log-softmax at the label's class. -/
theorem taken (hY : ∀ i, x1 (ix1 i) = 0#32 ∨ x1 (ix1 i) = 1#32) (i : Fin 16777216) :
    val_main_call1_v13 (F := Ideal) x0 x1 (ix2 i (0 : Fin 1)) = val_main_v0 (F := Ideal) x0 (ix2 i (classOf (x1 (ix1 i)))) := by
  unfold val_main_call1_v13 Host.gather
  refine congrArg _ (funext fun a => Fin.ext ?_)
  match a with
  | ⟨0, _⟩ => exact take_row _ i
  | ⟨1, _⟩ =>
    refine (take_col _ i).trans ?_
    rw [rownum x1 hY i]
    show min (x1 (ix1 i)).toInt.toNat 1 = (classOf (x1 (ix1 i))).val
    rcases hY i with h | h <;> rw [h] <;> rfl

/-- The selected value at row i: minus the row's cross-entropy. -/
theorem picked (hP : ∀ i e, x0 (ix2 i e) = ((P i e : ℝ) : EReal)) (hY : ∀ i, x1 (ix1 i) = 0#32 ∨ x1 (ix1 i) = 1#32)
    (i : Fin 16777216) :
    val_main_v2 (F := Ideal) x0 x1 (ix2 i (0 : Fin 1))
      = ((-(RowLoss.ce (P i 0) (P i 1) (decide (x1 (ix1 i) = 0#32))) : ℝ) : EReal) := by
  rw [val_main_v2_apply, inrange x1 hY i, taken x0 x1 hY i]
  refine (select_one _ _).trans ?_
  rw [logp x0 P hP i _]
  unfold classOf
  by_cases h : x1 (ix1 i) = 0#32
  · rw [if_pos h, decide_eq_true h]; exact RowLoss.ce_reference (P i 0) (P i 1) true
  · rw [if_neg h, decide_eq_false h]; exact RowLoss.ce_reference (P i 0) (P i 1) false

/-! ## The two totals and the result -/

/-- The total of the selected values over all rows (the reduction starts from zero). -/
theorem ce_total (hP : ∀ i e, x0 (ix2 i e) = ((P i e : ℝ) : EReal)) (hY : ∀ i, x1 (ix1 i) = 0#32 ∨ x1 (ix1 i) = 1#32)
    (j : S_.Idx) :
    val_main_v3 (F := Ideal) x0 x1 j
      = ((∑ i : Fin 16777216, -(RowLoss.ce (P i 0) (P i 1) (decide (x1 (ix1 i) = 0#32))) : ℝ) : EReal) := by
  rw [val_main_v3_apply, val_main_cst_apply]
  show Ideal.ofBits .f32 0x00000000#32 + ∑ j : S16777216x1.Idx, val_main_v2 (F := Ideal) x0 x1 j = _
  rw [Ideal.ofBits_zero_f32, zero_add, sum_idx2, RowLoss.coe_sum]
  refine Finset.sum_congr rfl fun i _ => ?_
  rw [Fin.sum_univ_one]
  exact picked x0 x1 P hP hY i

/-- The hinge of row i. -/
theorem hinge_row (hP : ∀ i e, x0 (ix2 i e) = ((P i e : ℝ) : EReal)) (i : Fin 16777216) :
    val_main_v18 (F := Ideal) x0 x1 (ix1 i)
      = ((RowLoss.hinge (P i 0) (P i 1) (decide (x1 (ix1 i) = 0#32)) : ℝ) : EReal) := by
  have c0 : val_main_v7 (F := Ideal) x0 (ix1 i) = ((P i 0 : ℝ) : EReal) := by
    rw [val_main_v7_apply, j7, val_main_v6_apply, j6, hP]
  have c1 : val_main_v9 (F := Ideal) x0 (ix1 i) = ((P i 1 : ℝ) : EReal) := by
    rw [val_main_v9_apply, j9, val_main_v8_apply, j8, hP]
  rw [val_main_v18_apply, val_main_v16_apply, val_main_v14_apply, val_main_v11_apply, val_main_v12_apply, val_main_v13_apply,
    c0, c1, val_main_v10_apply, val_main_c_apply, val_main_v15_apply, val_main_cst_1_apply, val_main_v17_apply,
    val_main_cst_2_apply]
  show max (Scalar.select (IntOp.cmpi .eq (x1 (ix1 i)) 0#32) (((P i 1 : ℝ) : EReal) - ((P i 0 : ℝ) : EReal))
    (((P i 0 : ℝ) : EReal) - ((P i 1 : ℝ) : EReal)) + Ideal.ofBits .f32 0x40A00000#32) (Ideal.ofBits .f32 0x00000000#32) = _
  rw [RowLoss.pick, Words.ofBits_five, Words.ofBits_zero]
  exact RowLoss.hinge_eq _ _ _

/-- The total of the hinges over all rows. -/
theorem hinge_total (hP : ∀ i e, x0 (ix2 i e) = ((P i e : ℝ) : EReal)) (j : S_.Idx) :
    val_main_v19 (F := Ideal) x0 x1 j
      = ((∑ i : Fin 16777216, RowLoss.hinge (P i 0) (P i 1) (decide (x1 (ix1 i) = 0#32)) : ℝ) : EReal) := by
  rw [val_main_v19_apply, val_main_cst_3_apply]
  show Ideal.ofBits .f32 0x00000000#32 + ∑ j : S16777216.Idx, val_main_v18 (F := Ideal) x0 x1 j = _
  rw [Ideal.ofBits_zero_f32, zero_add, RowLoss.coe_sum]
  exact (Equiv.sum_comp (idxEquiv1 (n := 16777216)).symm _).symm.trans
    (Finset.sum_congr rfl fun i _ => hinge_row x0 x1 P hP i)

/-- The reference's result on finite logits and labels in {0, 1}: the loss of the rows' cross-entropies and hinges. -/
theorem value (hP : ∀ i e, x0 (ix2 i e) = ((P i e : ℝ) : EReal)) (hY : ∀ i, x1 (ix1 i) = 0#32 ∨ x1 (ix1 i) = 1#32) :
    val_main_v22 (F := Ideal) x0 x1
      = fun _ => ((RowLoss.lossOf (fun i => RowLoss.ce (P i 0) (P i 1) (decide (x1 (ix1 i) = 0#32)))
          (fun i => RowLoss.hinge (P i 0) (P i 1) (decide (x1 (ix1 i) = 0#32))) : ℝ) : EReal) := by
  funext j
  rw [val_main_v22_apply, val_main_v5_apply, val_main_v4_apply, ce_total x0 x1 P hP hY, val_main_cst_0_apply,
    val_main_v21_apply, val_main_cst_5_apply, val_main_v20_apply, hinge_total x0 x1 P hP, val_main_cst_4_apply]
  show -(Ideal.div _ (Ideal.ofBits .f32 0x4B800000#32))
    + Ideal.ofBits .f32 0x3DCCCCCD#32 * Ideal.div _ (Ideal.ofBits .f32 0x4B800000#32) = _
  rw [Words.ofBits_rows, Words.ofBits_tenth, Ideal.div_coe (by norm_num : (16777216 : ℝ) ≠ 0),
    Ideal.div_coe (by norm_num : (16777216 : ℝ) ≠ 0), ← EReal.coe_mul, ← EReal.coe_neg, ← EReal.coe_mul, ← EReal.coe_mul,
    ← EReal.coe_add]
  rfl

end Cert.ReferenceIdeal.Loss

end
-- ==== Proof.lean ====
/-
  The certificate's claims.

  The loss is the mean over 2^24 rows of a two-class cross-entropy plus a coefficient (the binary fraction nearest one
  tenth, the same word in both programs) times the mean of a margin hinge. The precondition: every logit is finite and
  every label is class 0 or class 1.

  The kernel walks the rows in 2048 tiles of 8192. Each grid point adds to one resident cell the tile's
  (cross-entropy total + coefficient * hinge total) * 2^-24, the cell starting from zero at the first point; the cell is
  written back once after the last point and reshaped to the scalar result. The reference takes the row-wise log-softmax,
  picks the labelled entry by a gather that keeps a row only when its label is in range, negates the mean of those, and
  adds the coefficient times the mean of the hinges, each mean a division of a total by 2^24.

  On finite logits each row's cross-entropy and hinge is a real (the log-sum-exp's argument is a sum of two positive
  reals), and the picked log-softmax entry is minus the row's cross-entropy; a label in {0, 1} passes both range tests, so no
  row meets the fill value. Then both results are finite sums of reals: multiplying by 2^-24 is dividing by 2^24 exactly, and
  the sum over the tiles of the per-tile totals is the sum over all rows, so the two arrangements are one number.

  Frames: the kernel's two frames are generated whole; the reference's frame is its run with the result dropped. The ideal
  pass rewrote nothing, so the preservation claim is trivial.
-/
import proofs.«422092_j60361470378721_3_alg».proof.Defs
import proofs.«422092_j60361470378721_3_alg».proof.Proof.Gen.Kernel
import proofs.«422092_j60361470378721_3_alg».proof.Proof.Gen.Kernel.Skeleton
import proofs.«422092_j60361470378721_3_alg».proof.Proof.Gen.Kernel.Launch
import proofs.«422092_j60361470378721_3_alg».proof.Proof.Gen.Kernel.Points
import proofs.«422092_j60361470378721_3_alg».proof.Proof.Gen.Kernel.Frame
import proofs.«422092_j60361470378721_3_alg».proof.Proof.Gen.KernelIdeal
import proofs.«422092_j60361470378721_3_alg».proof.Proof.Gen.KernelIdeal.Skeleton
import proofs.«422092_j60361470378721_3_alg».proof.Proof.Gen.KernelIdeal.Launch
import proofs.«422092_j60361470378721_3_alg».proof.Proof.Gen.KernelIdeal.Points
import proofs.«422092_j60361470378721_3_alg».proof.Proof.Gen.KernelIdeal.Frame
import proofs.«422092_j60361470378721_3_alg».proof.Proof.Gen.ReferenceIdeal
import proofs.«422092_j60361470378721_3_alg».proof.Proof.Gen.Pre_finite_inputs
import proofs.«422092_j60361470378721_3_alg».proof.Proof.PreFacts
import proofs.«422092_j60361470378721_3_alg».proof.Proof.GridValue
import proofs.«422092_j60361470378721_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the loss of the rows' cross-entropies and hinges: the kernel as the sum of its tiles' partial sums,
    the reference as the two means; equal reals, hence equal extended reals. -/
theorem algebraic : Cert.algebraic_KernelIdeal_ReferenceIdeal := by
  intro m ρ m' ρ' hpre hagree
  have hd := fun c : Dev Cert.KernelIdeal.nD => Cert.PreFacts.decode
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  -- the reals behind the logits, on each device
  let Q : Dev Cert.KernelIdeal.nD → Fin 16777216 → Fin 2 → ℝ := fun c i e =>
    (m ((c.tc : Thread Cert.KernelIdeal.nD Cert.KernelIdeal.τ).loc Cert.KernelIdeal.main_arg0) (ix2 i e)).toReal
  have hQ : ∀ (c : Dev Cert.KernelIdeal.nD) i e,
      m ((c.tc : Thread Cert.KernelIdeal.nD Cert.KernelIdeal.τ).loc Cert.KernelIdeal.main_arg0) (ix2 i e) = ((Q c i e : ℝ) : EReal) :=
    fun c i e => (hd c).1 (ix2 i e)
  have hY : ∀ (c : Dev Cert.KernelIdeal.nD) (i : Fin 16777216),
      m ((c.tc : Thread Cert.KernelIdeal.nD Cert.KernelIdeal.τ).loc Cert.KernelIdeal.main_arg1) (ix1 i) = 0#32
        ∨ m ((c.tc : Thread Cert.KernelIdeal.nD Cert.KernelIdeal.τ).loc Cert.KernelIdeal.main_arg1) (ix1 i) = 1#32 :=
    fun c i => (hd c).2 (ix1 i)
  refine ⟨fun c => fun _ => ((Cert.KernelIdeal.Grid.total m (Q c) c : ℝ) : EReal), Cert.KernelIdeal.Grid.run m ρ Q hQ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, (hagree c).1, (hagree c).2,
    Cert.ReferenceIdeal.Loss.value _ _ (Q c) (hQ c) (hY c)]
  funext _
  exact congrArg (fun r : ℝ => (r : EReal)) (Cert.KernelIdeal.Grid.total_eq m (Q c) c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
